-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x32000000 : Shape := ⟨2, ![2, 32000000]⟩
abbrev S32000000x1 : Shape := ⟨2, ![32000000, 1]⟩
abbrev S1x1 : Shape := ⟨2, ![1, 1]⟩
abbrev S500000 : Shape := ⟨1, ![500000]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S32000000x1 : S_.BroadcastsInDim S32000000x1 (![] : Fin 0 → Fin S32000000x1.rank)
  reducesTo_S32000000x1_S_d0_1 : S32000000x1.ReducesTo [0, 1] S_
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S500000x2 .f32) (main_arg1 : IVec S2x32000000 32) (main_arg2 : FVec F S32000000x1 .f32) (main_arg3 : FVec F S1x1 .f32) (main_arg4 : IVec S500000 32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S32000000x1 .f32 := Host.absf main_arg2
  let main_cst_0 : FVec F S_ .f32 := constant S_ .f32 0x7F800000#32
  let main_v5 : FVec F S32000000x1 .f32 := broadcastInDim S32000000x1 ![] bcast_S_S32000000x1 main_cst_0
  let main_v6 : IVec S32000000x1 1 := cmpf .olt main_v4 main_v5
  let main_c_1 : IVec S_ 1 := constantI S_ 1 1#1
  let main_v7 : IVec S_ 1 := (fun x v => Host.reduce IntOp.andi x v reducesTo_S32000000x1_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  main_v13
-- ==== Kernel.lean ====
abbrev S500000x2 : Shape := ⟨2, ![500000, 2]⟩
abbrev S2x32000000 : Shape := ⟨2, ![2, 32000000]⟩
abbrev S32000000x1 : Shape := ⟨2, ![32000000, 1]⟩
abbrev S1x1 : Shape := ⟨2, ![1, 1]⟩
abbrev S500000 : Shape := ⟨1, ![500000]⟩
abbrev S1x32000000 : Shape := ⟨2, ![1, 32000000]⟩
abbrev S32000000 : Shape := ⟨1, ![32000000]⟩
abbrev S_ : Shape := ⟨0, ![]⟩
abbrev S500000x1 : Shape := ⟨2, ![500000, 1]⟩
abbrev S100000x1 : Shape := ⟨2, ![100000, 1]⟩
abbrev S100000x2 : Shape := ⟨2, ![100000, 2]⟩

abbrev nBuf : Space → Nat
  | .hbm => 12
  | .vmem => 6
  | .smem => 0
  | _ => 0

abbrev bufTy : (tb : Table) → Fin (tcTables nBuf tb) → BufTy
  | .hbm, ⟨0, _⟩ => ⟨S500000x2, .f32⟩
  | .hbm, ⟨1, _⟩ => ⟨S2x32000000, .i32⟩
  | .hbm, ⟨2, _⟩ => ⟨S32000000x1, .f32⟩
  | .hbm, ⟨3, _⟩ => ⟨S1x1, .f32⟩
  | .hbm, ⟨4, _⟩ => ⟨S500000, .i32⟩
  | .hbm, ⟨5, _⟩ => ⟨S1x32000000, .i32⟩
  | .hbm, ⟨6, _⟩ => ⟨S32000000, .i32⟩
  | .hbm, ⟨7, _⟩ => ⟨S_, .f32⟩
  | .hbm, ⟨8, _⟩ => ⟨S500000x1, .f32⟩
  | .hbm, ⟨9, _⟩ => ⟨S32000000x1, .i32⟩
  | .hbm, ⟨10, _⟩ => ⟨S500000x1, .f32⟩
  | .hbm, ⟨11, _⟩ => ⟨S500000x2, .f32⟩
  | .local _ .vmem, ⟨0, _⟩ => ⟨S100000x1, .f32⟩
  | .local _ .vmem, ⟨1, _⟩ => ⟨S100000x1, .f32⟩
  | .local _ .vmem, ⟨2, _⟩ => ⟨S100000x2, .f32⟩
  | .local _ .vmem, ⟨3, _⟩ => ⟨S100000x2, .f32⟩
  | .local _ .vmem, ⟨4, _⟩ => ⟨S100000x2, .f32⟩
  | .local _ .vmem, ⟨5, _⟩ => ⟨S100000x2, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x32000000_S1x32000000_0_0 : S2x32000000.Slices ![0, 0] S1x32000000
  shapeCasts_S1x32000000_S32000000 : S1x32000000.ShapeCasts S32000000
  bcast_S_S500000x1 : S_.BroadcastsInDim S500000x1 (![] : Fin 0 → Fin S500000x1.rank)
  bcast_S32000000_S32000000x1_0 : S32000000.BroadcastsInDim S32000000x1 (![0] : Fin 1 → Fin S32000000x1.rank)
  inb_S100000x2_S100000x1_0_1 : ∀ a, (![0, 1] : Fin 2 → Nat) a + S100000x1.size a ≤ S100000x2.size a
  h_S100000x1 : 0 < S100000x1.numel
  inb_S100000x1_S100000x1_0_0 : ∀ a, (![0, 0] : Fin 2 → Nat) a + S100000x1.size a ≤ S100000x1.size a
  shapeCasts_S100000x1_S100000x1 : S100000x1.ShapeCasts S100000x1
  concatenates_S100000x1_S100000x1_S100000x2_d1 : Shape.Concatenates [S100000x1, S100000x1] S100000x2 1
  inb_S100000x2_S100000x2_0_0 : ∀ a, (![0, 0] : Fin 2 → Nat) a + S100000x2.size a ≤ S100000x2.size a
  h_S100000x2 : 0 < S100000x2.numel
  scatter_S500000x1_S32000000x1_S32000000x1_1_0_0_1_wf : ScatterDims.WF S500000x1 S32000000x1 S32000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100000x1.size a ≤ S500000x1.size a
  hwx0_0 : ∀ i : grid0.Coords, EltTy.bits .f32 = 32 ∨ (Rect.block (s := S500000x1) S100000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100000x2.size a ≤ S500000x2.size a
  hwx0_1 : ∀ i : grid0.Coords, EltTy.bits .f32 = 32 ∨ (Rect.block (s := S500000x2) S100000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100000x2.size a ≤ S500000x2.size a
  hwx0_2 : ∀ i : grid0.Coords, EltTy.bits .f32 = 32 ∨ (Rect.block (s := S500000x2) S100000x2.size (cc0_transform_2 i) (hinb0_2 i)).WholeWords (EltTy.packing .f32)

variable [Facts₀]

def scatter_S500000x1_S32000000x1_S32000000x1_1_0_0_1 : ScatterDims S500000x1 S32000000x1 S32000000x1 where
  updateWindowDims := [1]
  insertedWindowDims := [0]
  scatterDimsToOperandDims := [0]
  indexVectorDim := 1
  wf := scatter_S500000x1_S32000000x1_S32000000x1_1_0_0_1_wf

abbrev win0_0 : Pipeline.Window sig grid0 :=
  Pipeline.Window.ofSpec (Memref.whole main_v4) S100000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S100000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S100000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x2 : Shape := ⟨2, ![500000, 2]⟩
abbrev S2x32000000 : Shape := ⟨2, ![2, 32000000]⟩
abbrev S32000000x1 : Shape := ⟨2, ![32000000, 1]⟩
abbrev S1x1 : Shape := ⟨2, ![1, 1]⟩
abbrev S500000 : Shape := ⟨1, ![500000]⟩
abbrev S500000x1 : Shape := ⟨2, ![500000, 1]⟩
abbrev S1x32000000 : Shape := ⟨2, ![1, 32000000]⟩
abbrev S32000000 : Shape := ⟨1, ![32000000]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S2x32000000, .i32⟩
  | .hbm, ⟨2, _⟩ => ⟨S32000000x1, .f32⟩
  | .hbm, ⟨3, _⟩ => ⟨S1x1, .f32⟩
  | .hbm, ⟨4, _⟩ => ⟨S500000, .i32⟩
  | .hbm, ⟨5, _⟩ => ⟨S500000x1, .f32⟩
  | .hbm, ⟨6, _⟩ => ⟨S1x32000000, .i32⟩
  | .hbm, ⟨7, _⟩ => ⟨S32000000, .i32⟩
  | .hbm, ⟨8, _⟩ => ⟨S_, .f32⟩
  | .hbm, ⟨9, _⟩ => ⟨S500000x1, .f32⟩
  | .hbm, ⟨10, _⟩ => ⟨S32000000x1, .i32⟩
  | .hbm, ⟨11, _⟩ => ⟨S500000x1, .f32⟩
  | .hbm, ⟨12, _⟩ => ⟨S500000x2, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  slices_S500000x2_S500000x1_0_1 : S500000x2.Slices ![0, 1] S500000x1
  slices_S2x32000000_S1x32000000_0_0 : S2x32000000.Slices ![0, 0] S1x32000000
  shapeCasts_S1x32000000_S32000000 : S1x32000000.ShapeCasts S32000000
  bcast_S_S500000x1 : S_.BroadcastsInDim S500000x1 (![] : Fin 0 → Fin S500000x1.rank)
  bcast_S32000000_S32000000x1_0 : S32000000.BroadcastsInDim S32000000x1 (![0] : Fin 1 → Fin S32000000x1.rank)
  concatenates_S500000x1_S500000x1_S500000x2_d1 : Shape.Concatenates [S500000x1, S500000x1] S500000x2 1
  scatter_S500000x1_S32000000x1_S32000000x1_1_0_0_1_wf : ScatterDims.WF S500000x1 S32000000x1 S32000000x1 [1] [0] [0] 1

variable [Facts₀]

def scatter_S500000x1_S32000000x1_S32000000x1_1_0_0_1 : ScatterDims S500000x1 S32000000x1 S32000000x1 where
  updateWindowDims := [1]
  insertedWindowDims := [0]
  scatterDimsToOperandDims := [0]
  indexVectorDim := 1
  wf := scatter_S500000x1_S32000000x1_S32000000x1_1_0_0_1_wf

class Facts : Prop extends Facts₀ where

variable [Facts]
-- ==== Proof.TwoColumns.lean ====
/-
  Two columns side by side.  For an [n, 1] column `a` and an [n, 2] matrix `x`, `sideBySide a x` is the
  [n, 2] array whose lane 0 is `a` and whose lane 1 is lane 1 of `x`:
      sideBySide a x (p, 0) = a (p, 0),        sideBySide a x (p, 1) = x (p, 1).
  A concatenation along axis 1 of two [n, 1] columns, read at an entry (p, l), is the first column at (p, 0) when
  l = 0 and the second column at (p, 0) when l = 1 (`concat_columns_apply`).  When the second column is the
  unit-stride slice of `x` at offset (0, 1), the concatenation is `sideBySide a x` (`concat_slice_eq`).
  Nothing here computes with the entries: every statement holds for entries of any type.
-/
import Idealize.ShloMosaic.Lib.Pipeline.Value
import Idealize.ShloMosaic.Lib.ValueIdx

noncomputable section

namespace Cert.TwoColumns

open Idealize.ShloMosaic Idealize.ShloMosaic.ValueIdx

variable {α : Type}

/-- The shape of a column of `n` rows. -/
abbrev Col (n : Nat) : Shape := ⟨2, ![n, 1]⟩
/-- The shape of a matrix of `n` rows and two lanes. -/
abbrev Mat (n : Nat) : Shape := ⟨2, ![n, 2]⟩

/-- The row of an entry of an [n, 2] array, as a number below `n`. -/
def row {n : Nat} (i : (Mat n).Idx) : Fin n := ⟨(i 0).val, idx2_lt0 i⟩

/-- Lane 0 from the column `a`, lane 1 from lane 1 of the matrix `x`, row by row. -/
def sideBySide {n : Nat} (a : (Col n).Idx → α) (x : (Mat n).Idx → α) : (Mat n).Idx → α :=
  fun i => if (i 1).val = 0 then a (ix2 (row i) 0) else x (ix2 (row i) 1)

/-- A concatenation of two columns along axis 1 at the entry `i`: lane 0 holds the first column's row, lane 1
    the second column's row. -/
theorem concat_columns_apply {n : Nat} (a b : (Col n).Idx → α)
    (h : Shape.Concatenates ([(⟨Col n, a⟩ : (s : Shape) × (s.Idx → α)), ⟨Col n, b⟩].map (·.1)) (Mat n) 1)
    (i : (Mat n).Idx) :
    concatenate (Mat n) 1 [⟨Col n, a⟩, ⟨Col n, b⟩] h i
      = if (i 1).val = 0 then a (ix2 (row i) 0) else b (ix2 (row i) 0) := by
  have h1 : (i 1).val < 2 := idx2_lt1 i
  by_cases h0 : (i 1).val = 0
  · rw [if_pos h0]
    -- the first piece spans lane 0: nothing lies before it
    exact concatenate_apply_piece (t := Mat n) 1 [⟨Col n, a⟩, ⟨Col n, b⟩] h i 0 (Nat.zero_lt_succ 1) (Col n) a rfl rfl 0 rfl (ix2 (row i) 0)
      (fun b hb => by match b with | ⟨0, _⟩ => rfl | ⟨1, _⟩ => exact absurd rfl hb)
      (by show 0 + 0 = (i 1).val; omega)
  · rw [if_neg h0]
    -- the second piece spans lane 1: one lane lies before it
    exact concatenate_apply_piece (t := Mat n) 1 [⟨Col n, a⟩, ⟨Col n, b⟩] h i 1 (Nat.lt_succ_self 1) (Col n) b rfl rfl 1 rfl (ix2 (row i) 0)
      (fun b hb => by match b with | ⟨0, _⟩ => rfl | ⟨1, _⟩ => exact absurd rfl hb)
      (by show 1 + 0 = (i 1).val; omega)

/-- The concatenation of a column with the slice "lane 1" of a matrix is `sideBySide`: the slice at offset
    (0, 1), read at (p, 0), is the matrix at (p, 1). -/
theorem concat_slice_eq {n : Nat} (a : (Col n).Idx → α) (x : (Mat n).Idx → α) (hs : (Mat n).Slices ![0, 1] (Col n))
    (h : Shape.Concatenates ([(⟨Col n, a⟩ : (s : Shape) × (s.Idx → α)),
      ⟨Col n, extractStridedSlice (Col n) ![0, 1] x hs⟩].map (·.1)) (Mat n) 1) :
    concatenate (Mat n) 1 [⟨Col n, a⟩, ⟨Col n, extractStridedSlice (Col n) ![0, 1] x hs⟩] h = sideBySide a x := by
  funext i
  rw [concat_columns_apply]
  unfold sideBySide
  by_cases h0 : (i 1).val = 0
  · rw [if_pos h0, if_pos h0]
  · rw [if_neg h0, if_neg h0]
    exact extractStridedSlice_apply _ x hs _ (ix2 (row i) 1) (fun d => by
      match d with
      | ⟨0, _⟩ => show (i 0).val = 0 + (i 0).val; omega
      | ⟨1, _⟩ => rfl)

end Cert.TwoColumns

end
-- ==== Proof.KernelArray.lean ====
/-
  The array the kernel program leaves, as one function of the arrays the region finds.

  The region's first window stages the column of edge sums (the host scatter's result, [500000, 1]) in blocks of
  100000 rows, its second window the vertex attributes ([500000, 2]) in blocks of the same rows, and the output
  window writes back blocks of 100000 rows of the [500000, 2] result; all three index maps send grid point t to
  block row t, lane block 0.  The body stores, whole, the concatenation along the lanes of the edge-sum block and of
  lane 1 of the vertex block: the block `sideBySide` of its two input blocks (`body_eq`).  An entry (r, l) of
  block t sits at row 100000 t + r of each array, so what point t writes back is block t of
  `sideBySide` of the two WHOLE arrays (`flushed_eq`); the five blocks cover all 500000 rows (`cover`: row p is in
  block p / 100000), hence the output array ends as `sideBySide edgeSums vertex_attr` (`final`, `run`).
  The edge sums themselves are what the host operations before the region compute from the arguments
  (`edgeSums`, `V_main_v4`); they are carried as one term and never opened.
-/
import proofs.«133638_j91096256348956_1_alg».proof.Proof.Gen.KernelIdeal.Value
import proofs.«133638_j91096256348956_1_alg».proof.Proof.TwoColumns
import Idealize.ShloMosaic.Lib.StableHlo.Run

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx Cert.TwoColumns
open Idealize.ShloMosaic.Pipeline (Dat)

variable {F : FTy → Type} [FloatOps F]
variable (m : (ℓ : Loc nD τ sig) → Buf (Elt F) ℓ) (ρ : Dev nD → PrngReg)

/-! ## The body: one block -/

theorem zeros : (![0, 0] : Fin 2 → Nat) = fun _ => 0 := funext fun a => by fin_cases a <;> rfl

/-- What the body leaves in the output block, from the edge-sum block `x0` and the vertex block `x1`: lane 0 is
    `x0`, lane 1 is lane 1 of `x1`.  The body's one store covers the block; its payload concatenates `x0` (through a
    shape cast to its own shape) with the load of `x1` through the rectangle at offset (0, 1), whose entry (r, 0) is
    `x1 (r, 1)`. -/
theorem body_eq (x0 : Vec F S100000x1 .f32) (x1 : Vec F S100000x2 .f32) :
    out0_2 x0 x1 = sideBySide (n := 100000) x0 x1 := by
  unfold out0_2
  rw [View.canon_unit_zero zeros, View.ld_unit_zero (S := S100000x1) zeros, lay2_0_eq x0 (View.ld x1 r0_0),
    shapeCast_self]
  funext y
  refine (concat_columns_apply (n := 100000) x0 (View.ld x1 r0_0) _ y).trans ?_
  unfold sideBySide
  by_cases h0 : (y 1).val = 0
  · rw [if_pos h0, if_pos h0]
  · rw [if_neg h0, if_neg h0]
    show x1 (r0_0.emb (ix2 (row y) 0)) = x1 (ix2 (row y) 1)
    refine congrArg x1 (funext fun a => Fin.ext ?_)
    match a with
    | ⟨0, _⟩ => show 0 + 1 * (y 0).val = (y 0).val; omega
    | ⟨1, _⟩ => rfl

/-! ## The grid: which block each point stages and writes back -/

/-- The printed index maps over the five points: every window is at block row `t` (the output's, at most 4) and at
    lane block 0. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 4 :=
  (by decide +kernel : ∀ t : Fin grid0.N, _)

/-- Every one of the five block rows is some point's. -/
theorem idx_onto : ∀ q : Fin 5, ∃ t : Fin cfg0.N, win0_2.index t = ![q.val, 0] :=
  (by decide +kernel : ∀ q : Fin 5, ∃ t : Fin grid0.N, win0_2.index t = ![q.val, 0])

/-- What point `t` writes back is block `t` of `sideBySide` of the two whole arrays as the region finds them: an
    entry (r, l) of block `t` is the arrays' entry in row 100000 t + r. -/
theorem flushed_eq (c : Dev nD) (t : Fin cfg0.N) :
    (dats m 0 c).flushed 2 t
      = ((cfg0.win 2).blk t).view.read (Elt F) (sideBySide (n := 500000) (V m c main_v4) (V m c main_arg0)) := by
  show (cfg0.win 2).cut (grid0.coords t) ((dats m 0 c).after 2 t) = _
  rw [after0_2, body_eq (iblk m c 0 t) (iblk m c 1 t)]
  obtain ⟨e0, e1, e2, e3, e4, e5⟩ := idx_facts t
  funext j
  show sideBySide (n := 100000) (iblk m c 0 t) (iblk m c 1 t) j
    = sideBySide (n := 500000) (V m c main_v4) (V m c main_arg0) (((cfg0.win 2).blk t).view.emb j)
  unfold sideBySide
  have hl : ((((cfg0.win 2).blk t).view.emb j) 1).val = (j 1).val := by
    show win0_2.index t (1 : Fin 2) * 2 + 1 * (j 1).val = (j 1).val; omega
  by_cases h0 : (j 1).val = 0
  · rw [if_pos h0, if_pos (hl.trans h0)]
    show V m c main_v4 (((cfg0.win 0).blk t).view.emb (ix2 (row j) 0))
      = V m c main_v4 (ix2 (row (((cfg0.win 2).blk t).view.emb j)) 0)
    refine congrArg (V m c main_v4) (funext fun a => Fin.ext ?_)
    match a with
    | ⟨0, _⟩ =>
      show win0_0.index t (0 : Fin 2) * 100000 + 1 * (j 0).val = win0_2.index t (0 : Fin 2) * 100000 + 1 * (j 0).val
      omega
    | ⟨1, _⟩ => show win0_0.index t (1 : Fin 2) * 1 + 1 * 0 = 0; omega
  · rw [if_neg h0, if_neg (fun h => h0 (hl.symm.trans h))]
    show V m c main_arg0 (((cfg0.win 1).blk t).view.emb (ix2 (row j) 1))
      = V m c main_arg0 (ix2 (row (((cfg0.win 2).blk t).view.emb j)) 1)
    refine congrArg (V m c main_arg0) (funext fun a => Fin.ext ?_)
    match a with
    | ⟨0, _⟩ =>
      show win0_1.index t (0 : Fin 2) * 100000 + 1 * (j 0).val = win0_2.index t (0 : Fin 2) * 100000 + 1 * (j 0).val
      omega
    | ⟨1, _⟩ => show win0_1.index t (1 : Fin 2) * 2 + 1 * 1 = 1; omega

/-! ## The blocks cover the array -/

/-- An entry of the array is in point `t`'s block iff each coordinate is in the block's range on its axis. -/
theorem mem_blk (t : Fin cfg0.N) (i : S500000x2.Idx) :
    i ∈ ((cfg0.win 2).blk t).view.set ↔ ∀ a : Fin 2, win0_2.index t a * S100000x2.size a ≤ (i a).val
      ∧ (i a).val < win0_2.index t a * S100000x2.size a + S100000x2.size a := by
  show i ∈ ((View.whole main_v5).slice (win0_2.rect t)).set ↔ _
  rw [View.set_slice_whole, Rect.mem_set_unit]
  exact Iff.rfl

/-- Row `p` of the array lies in the block of the point at block row `p / 100000`, and every point writes back. -/
theorem cover (i : S500000x2.Idx) :
    ∃ t : Fin cfg0.N, (cfg0.win 2).flush t = true ∧ i ∈ ((cfg0.win 2).blk t).view.set := by
  have hi0 : (i 0).val < 500000 := (i 0).isLt
  have hi1 : (i 1).val < 2 := (i 1).isLt
  obtain ⟨t, ht⟩ := idx_onto ⟨(i 0).val / 100000, by omega⟩
  have q0 : win0_2.index t (0 : Fin 2) = (i 0).val / 100000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 100000 ≤ (i 0).val ∧ (i 0).val < win0_2.index t (0 : Fin 2) * 100000 + 100000
    omega
  | ⟨1, _⟩ =>
    show win0_2.index t (1 : Fin 2) * 2 ≤ (i 1).val ∧ (i 1).val < win0_2.index t (1 : Fin 2) * 2 + 2
    omega

/-- The output array after the run: lane 0 the edge sums, lane 1 the vertex attributes' lane 1, as the region
    finds them. -/
theorem final (c : Dev nD) :
    (dats m 0 c).arrAt 2 cfg0.N = sideBySide (n := 500000) (V m c main_v4) (V m c main_arg0) :=
  (dats m 0 c).arrAt_eq_of_cover 2 _ (fun t _ => flushed_eq m c t) cover

/-! ## The edge sums, from the arguments -/

/-- The column of edge sums: the accumulating scatter of the edge attributes `u` into a column of zeros, the
    destination row of edge `e` being entry (0, e) of the pair array `pairs` (its row 0, reshaped to a vector and
    laid out as a column of one-word index vectors). -/
def edgeSums (pairs : (⟨S2x32000000, .i32⟩ : BufTy).Contents (Elt F)) (u : (⟨S32000000x1, .f32⟩ : BufTy).Contents (Elt F)) :
    (⟨S500000x1, .f32⟩ : BufTy).Contents (Elt F) :=
  Host.scatterAdd scatter_S500000x1_S32000000x1_S32000000x1_1_0_0_1
    (broadcastInDim S500000x1 ![] bcast_S_S500000x1 (constant S_ .f32 0x00000000#32))
    (broadcastInDim S32000000x1 ![0] bcast_S32000000_S32000000x1_0
      (shapeCast _ (extractStridedSlice S1x32000000 ![0, 0] pairs slices_S2x32000000_S1x32000000_0_0) shapeCasts_S1x32000000_S32000000))
    u

/-- The host operations before the region leave the edge sums of the launch arguments in the first window's
    array. -/
theorem V_main_v4 (c : Dev nD) :
    V m c main_v4 = edgeSums (m ((c : Thread nD τ).loc main_arg1)) (m ((c : Thread nD τ).loc main_arg2)) := by
  dsimp only [V, hostOps0]; after_results; rfl

/-! ## The run -/

/-- Every weakly fair execution of the kernel program ends with the result array at `sideBySide` of the edge sums
    and the vertex attributes of the launch arguments, the arguments unchanged. -/
theorem run : θ_run defs (onTc (τ := τ) (main (F := F))) ⟨m, fun _ => 0, ρ⟩ fun r => ∀ c : Dev nD,
      r.2.mem ((c : Thread nD τ).loc main_v5)
        = sideBySide (n := 500000) (edgeSums (m ((c : Thread nD τ).loc main_arg1)) (m ((c : Thread nD τ).loc main_arg2)))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_main_v4, V_main_arg0])), (h c).2⟩)
    (run_blocks m ρ)

end Cert.KernelIdeal.Array

end
-- ==== Proof.lean ====
/-
  The kernel program and the reference leave the same [500000, 2] array.

  Both programs first form the column of edge sums by the same host operations: row 0 of the pair array gives
  each edge its destination vertex, and the edge attributes are accumulated by a scatter into a column of zeros.
  That column is one term of the arguments on both sides and is never opened.  The reference then
  concatenates, along the lanes, the column with the slice "lane 1" of the vertex attributes.  The kernel program
  does the same concatenation inside its one region, in five blocks of 100000 rows.  Each side's result is
  `sideBySide edgeSums vertex_attr`: lane 0 holds the edge sums, lane 1 the vertex attributes' lane 1
  (the kernel's array: Proof/KernelArray.lean; the reference's concatenation at an entry: Proof/TwoColumns.lean).
  No arithmetic separates the two sides, so the precondition (finite inputs) is not used for the values.  The
  idealization rewrote nothing, so the kernel's idealization is its own text read at the ideal instance and
  `preserves` is `True`.  The two kernel programs' frames are their generated frame certificates; the reference
  has no kernel, and its frame is its run with the result dropped.
-/
import proofs.«133638_j91096256348956_1_alg».proof.Defs
import proofs.«133638_j91096256348956_1_alg».proof.Proof.Gen.Kernel
import proofs.«133638_j91096256348956_1_alg».proof.Proof.Gen.Kernel.Skeleton
import proofs.«133638_j91096256348956_1_alg».proof.Proof.Gen.Kernel.Launch
import proofs.«133638_j91096256348956_1_alg».proof.Proof.Gen.Kernel.Points
import proofs.«133638_j91096256348956_1_alg».proof.Proof.Gen.Kernel.Frame
import proofs.«133638_j91096256348956_1_alg».proof.Proof.Gen.KernelIdeal
import proofs.«133638_j91096256348956_1_alg».proof.Proof.Gen.KernelIdeal.Skeleton
import proofs.«133638_j91096256348956_1_alg».proof.Proof.Gen.KernelIdeal.Launch
import proofs.«133638_j91096256348956_1_alg».proof.Proof.Gen.KernelIdeal.Points
import proofs.«133638_j91096256348956_1_alg».proof.Proof.Gen.KernelIdeal.Frame
import proofs.«133638_j91096256348956_1_alg».proof.Proof.Gen.ReferenceIdeal
import proofs.«133638_j91096256348956_1_alg».proof.Proof.Gen.Pre_finite_inputs
import proofs.«133638_j91096256348956_1_alg».proof.Proof.Gen.KernelIdeal.Value
import proofs.«133638_j91096256348956_1_alg».proof.Proof.Gen.ReferenceIdeal.Run
import proofs.«133638_j91096256348956_1_alg».proof.Proof.TwoColumns
import proofs.«133638_j91096256348956_1_alg».proof.Proof.KernelArray
import Idealize.ShloMosaic.Adequacy
import Idealize.ShloMosaic.Init

noncomputable section

namespace Cert.Proof

open Idealize.ShloMosaic Idealize.SL.Sem

/-- The kernel program as printed runs, and leaves its arguments as they were. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- The reference is a line of host operations: it runs, and its arguments are among the buffers no operation
    writes. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, the kernel program's result array is `sideBySide` of the edge sums
    and the vertex attributes (Proof/KernelArray.lean's `run`), and the reference's result is the concatenation of
    the same edge-sum column with the slice "lane 1" of the same vertex attributes, which is that function
    (`concat_slice_eq`). -/
theorem algebraic : Cert.algebraic_KernelIdeal_ReferenceIdeal := by
  intro m ρ m' ρ' _ hagree
  refine ⟨_, Cert.KernelIdeal.Array.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1]
  exact Cert.TwoColumns.concat_slice_eq (n := 500000) _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
